-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S400x512 : Shape := ⟨2, ![400, 512]⟩
abbrev S1x512 : Shape := ⟨2, ![1, 512]⟩
abbrev S400x10000 : Shape := ⟨2, ![400, 10000]⟩

abbrev nBuf : Space → Nat
  | .hbm => 11
  | .vmem => 19
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S10000x512, .bf16⟩
  | .hbm, ⟨7, _⟩ => ⟨S1x512, .f32⟩
  | .hbm, ⟨8, _⟩ => ⟨S10000x512, .bf16⟩
  | .hbm, ⟨9, _⟩ => ⟨S1x512, .f32⟩
  | .hbm, ⟨10, _⟩ => ⟨S10000x512, .f32⟩
  | .local _ .vmem, ⟨0, _⟩ => ⟨S400x512, .f32⟩
  | .local _ .vmem, ⟨1, _⟩ => ⟨S400x512, .f32⟩
  | .local _ .vmem, ⟨2, _⟩ => ⟨S512x512, .f32⟩
  | .local _ .vmem, ⟨3, _⟩ => ⟨S400x512, .bf16⟩
  | .local _ .vmem, ⟨4, _⟩ => ⟨S400x512, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S1x512, .f32⟩
  | .local _ .vmem, ⟨9, _⟩ => ⟨S512x512, .f32⟩
  | .local _ .vmem, ⟨10, _⟩ => ⟨S400x512, .bf16⟩
  | .local _ .vmem, ⟨11, _⟩ => ⟨S400x512, .bf16⟩
  | .local _ .vmem, ⟨12, _⟩ => ⟨S400x10000, .f32⟩
  | .local _ .vmem, ⟨13, _⟩ => ⟨S400x10000, .f32⟩
  | .local _ .vmem, ⟨14, _⟩ => ⟨S10000x512, .bf16⟩
  | .local _ .vmem, ⟨15, _⟩ => ⟨S1x512, .f32⟩
  | .local _ .vmem, ⟨16, _⟩ => ⟨S512x512, .f32⟩
  | .local _ .vmem, ⟨17, _⟩ => ⟨S400x512, .f32⟩
  | .local _ .vmem, ⟨18, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S400x512_S400x512_0_0 : ∀ a, (![0, 0] : Fin 2 → Nat) a + S400x512.size a ≤ S400x512.size a
  h_S400x512 : 0 < S400x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S400x512_S400x512_0_0 : (Rect.unit (s := S400x512) ![0, 0] S400x512.size inb_S400x512_S400x512_0_0).PackedRows (EltTy.packing .bf16)
  shapeCasts_S512_S1x512 : S512.ShapeCasts S1x512
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  dot_S400x512_S512x512_S400x512_1_0_0_1_n_n_wf : DotDims.WF S400x512 S512x512 S400x512 [1] [0] [0] [1] [] []
  dot_S400x10000_S10000x512_S400x512_1_0_0_1_n_n_wf : DotDims.WF S400x10000 S10000x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S10000x512.size a
  hwx0_0 : ∀ i : grid0.Coords, EltTy.bits .f32 = 32 ∨ (Rect.block (s := S10000x512) S400x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S10000x512.size a
  hwx0_2 : ∀ i : grid0.Coords, EltTy.bits .bf16 = 32 ∨ (Rect.block (s := S10000x512) S400x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x512.size a ≤ S10000x512.size a
  hwx1_4 : ∀ i : grid1.Coords, EltTy.bits .bf16 = 32 ∨ (Rect.block (s := S10000x512) S400x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x512.size a ≤ S10000x512.size a
  hwx2_1 : ∀ i : grid2.Coords, EltTy.bits .bf16 = 32 ∨ (Rect.block (s := S10000x512) S10000x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x512.size a ≤ S10000x512.size a
  hwx2_4 : ∀ i : grid2.Coords, EltTy.bits .f32 = 32 ∨ (Rect.block (s := S10000x512) S400x512.size (cc2_transform_4 i) (hinb2_4 i)).WholeWords (EltTy.packing .f32)

variable [Facts₀]

def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf

abbrev win0_0 : Pipeline.Window sig grid0 :=
  Pipeline.Window.ofSpec (Memref.whole main_arg0) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S400x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S10000x512, .f32⟩
  | .hbm, ⟨12, _⟩ => ⟨S10000x512, .f32⟩
  | .hbm, ⟨13, _⟩ => ⟨S10000x512, .f32⟩
  | .hbm, ⟨14, _⟩ => ⟨S1x512, .f32⟩
  | .hbm, ⟨15, _⟩ => ⟨S10000x512, .f32⟩
  | .hbm, ⟨16, _⟩ => ⟨S10000x512, .f32⟩
  | .hbm, ⟨17, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibGcnLayer.lean ====
/-
  The mathematics of the two-layer graph convolution, independent of any program.

  Matrices are functions on rank-2 indices with extended-real entries.  `mm A B` is the textbook product
  (A·B)(p, q) = Σ_c A(p, c) · B(c, q); `act A S b` is one layer's activation tanh(A·S + b), the bias `b` a
  vector added to every row; `net` is the whole network
      tanh(adj · (tanh(adj · (x·W1) + b1) · W2) + b2).
  Then the two ways a program spells these at the ideal values: a kernel's product accumulated into zero and
  narrowed (narrowing is the identity on the extended reals), the host's dot_general, and a tile of the activation
  with the bias held as a one-row matrix broadcast down the rows.
-/
import Idealize.ShloMosaic.PureOps.Ideal.Laws
import Idealize.ShloMosaic.Lib.ValueIdx
import Idealize.ShloMosaic.Lib.ValueLayout
import Idealize.ShloMosaic.Lib.Pipeline.Value
import proofs.«148152_g7164005450370_cont_sun_m_643_7_alg».proof.Proof.LibPlainMatmul

noncomputable section

namespace Cert.Gcn

open Idealize.ShloMosaic Idealize.ShloMosaic.ValueIdx

/-- An m×n matrix of extended reals. -/
abbrev Mat (m n : Nat) : Type := (⟨2, ![m, n]⟩ : Shape).Idx → EReal

/-- The matrix product, entry by entry. -/
def mm {m k n : Nat} (A : Mat m k) (B : Mat k n) : Mat m n :=
  fun j => ∑ c : Fin k, A (ix2 (j 0) c) * B (ix2 c (j 1))

theorem mm_apply {m k n : Nat} (A : Mat m k) (B : Mat k n) (p : Fin m) (q : Fin n) :
    mm A B (ix2 p q) = ∑ c : Fin k, A (ix2 p c) * B (ix2 c q) := rfl

/-- One layer's activation: tanh of the product plus the bias of the entry's column. -/
def act {m k n : Nat} (A : Mat m k) (S : Mat k n) (b : Fin n → EReal) : Mat m n :=
  fun j => Ideal.tanh (mm A S j + b (j 1))

theorem act_apply {m k n : Nat} (A : Mat m k) (S : Mat k n) (b : Fin n → EReal) (p : Fin m) (q : Fin n) :
    act A S b (ix2 p q) = Ideal.tanh ((∑ c : Fin k, A (ix2 p c) * S (ix2 c q)) + b q) := rfl

/-- The network: two stacked layers, the second layer's weight applied to the first layer's activation. -/
def net {n f h : Nat} (x : Mat n f) (adj : Mat n n) (W1 : Mat f h) (b1 : Fin h → EReal) (W2 : Mat h h)
    (b2 : Fin h → EReal) : Mat n h :=
  act adj (mm (act adj (mm x W1) b1) W2) b2

/-- The host's dot_general of an m×k by a k×n matrix, at the entry (p, q), is the product's entry. -/
theorem hostDot_apply {m k n : Nat} {φ₁ φ₂ : FTy} (prec : Option ContractPrecision)
    (A : FVec Ideal ⟨2, ![m, k]⟩ φ₁) (B : FVec Ideal ⟨2, ![k, n]⟩ φ₂) (p : Fin m) (q : Fin n) :
    Host.dotGeneral (DotDims.plain m k n) prec A B (ix2 p q) = ∑ c : Fin k, A (ix2 p c) * B (ix2 c q) := by
  have h0 := LibPlainMatmul.matmul_plain_zero_apply prec A B p q
  rw [← h0]
  show FloatOps.dotGeneral (DotDims.plain m k n) prec .single A B (ix2 p q)
    = FloatOps.matmul (DotDims.plain m k n) prec A B (constant (⟨2, ![m, n]⟩ : Shape) .f32 0x00000000#32) (ix2 p q)
  rw [Ideal.dotGeneral_apply, Ideal.matmul_constant_zero_apply]

/-- A kernel's product into the zero accumulator, narrowed to a shorter format: still the product's entry. -/
theorem tile_mm_apply {m k n : Nat} {φ₁ φ₂ ψ : FTy} (hψ : ψ.bits < FTy.f32.bits)
    (A : FVec Ideal ⟨2, ![m, k]⟩ φ₁) (B : FVec Ideal ⟨2, ![k, n]⟩ φ₂) (p : Fin m) (q : Fin n) :
    truncf ψ (matmul (DotDims.plain m k n) none A B (constant (⟨2, ![m, n]⟩ : Shape) .f32 0x00000000#32)) hψ (ix2 p q)
      = ∑ c : Fin k, A (ix2 p c) * B (ix2 c q) :=
  LibPlainMatmul.matmul_plain_zero_apply none A B p q

/-- A tile of the activation as a kernel computes it: the product into zero, plus the one-row bias broadcast down the
    rows, through tanh. -/
theorem tile_act_apply {m k n : Nat} {φ₁ φ₂ : FTy}
    (A : FVec Ideal ⟨2, ![m, k]⟩ φ₁) (S : FVec Ideal ⟨2, ![k, n]⟩ φ₂) (b : FVec Ideal ⟨2, ![1, n]⟩ .f32)
    (hS : (⟨2, ![k, n]⟩ : Shape).ShapeCasts ⟨2, ![k, n]⟩) (hb : (⟨2, ![1, n]⟩ : Shape).ShapeCasts ⟨2, ![1, n]⟩)
    (hbc : (⟨2, ![1, n]⟩ : Shape).Broadcasts ⟨2, ![m, n]⟩) (p : Fin m) (q : Fin n) :
    tanh (addf (matmul (DotDims.plain m k n) none A (shapeCast ⟨2, ![k, n]⟩ S hS)
        (constant (⟨2, ![m, n]⟩ : Shape) .f32 0x00000000#32))
      (broadcastTo ⟨2, ![m, n]⟩ (shapeCast ⟨2, ![1, n]⟩ b hb) hbc)) (ix2 p q)
      = Ideal.tanh ((∑ c : Fin k, A (ix2 p c) * S (ix2 c q)) + b (ix2 (0 : Fin 1) q)) := by
  rw [shapeCast_self, shapeCast_self]
  show Ideal.tanh (matmul (DotDims.plain m k n) none A S (constant (⟨2, ![m, n]⟩ : Shape) .f32 0x00000000#32) (ix2 p q)
    + broadcastTo ⟨2, ![m, n]⟩ b hbc (ix2 p q)) = _
  rw [LibPlainMatmul.matmul_plain_zero_apply, broadcastTo_1b_ab_apply]

end Cert.Gcn

end
-- ==== Proof.Region0.lean ====
/-
  The first kernel region computes the product x·W1 a slab of 400 rows at a time.

  At grid point t the body reads rows 400·t … 400·t+399 of x and the whole of W1, multiplies them into a zero accumulator
  and narrows the result; narrowing is the identity on the extended reals, so the slab written back is the matching
  slab of the product (x·W1)(p, q) = Σ_c x(p, c) · W1(c, q).  The 25 slabs tile the 10000 rows, so the array the region
  leaves is the whole product of the arrays it found.
-/
import proofs.«148152_g7164005450370_cont_sun_m_643_7_alg».proof.Proof.Gen.KernelIdeal.Frame
import proofs.«148152_g7164005450370_cont_sun_m_643_7_alg».proof.Proof.LibGcnLayer
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The arrays the region reads, as matrices: x and W1 as the region finds them. -/
abbrev xMat (c : Dev nD) : Gcn.Mat 10000 512 := V c main_arg0
abbrev wMat (c : Dev nD) : Gcn.Mat 512 512 := V c main_arg2

theorem origin : (![0, 0] : Fin 2 → Nat) = fun _ => 0 := funext fun a => by fin_cases a <;> rfl

/-- The body's stored value at the entry (p, q) of its slab: the product's sum over the contracted coordinate. -/
theorem tile_apply (x0 : Vec Ideal S400x512 .f32) (x1 : Vec Ideal S512x512 .f32) (p : Fin 400) (q : Fin 512) :
    k0_pay1 (F := Ideal) x0 x1 (ix2 p q) = ∑ c : Fin 512, x0 (ix2 p c) * x1 (ix2 c q) :=
  Gcn.tile_mm_apply (m := 400) (k := 512) (n := 512) (ψ := .bf16) (by decide) x0 x1 p q

/-- Where the windows sit at point t: the slab of x and the output slab at block row t, W1 whole. -/
theorem block_rows : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point t writes back is slab t of the product of the arrays the region found. -/
theorem flushed_eq (c : Dev nD) (t : Fin cfg0.N) :
    (dat0 V c).flushed 2 t = ((cfg0.win 2).blk t).view.read (Elt Ideal) (Gcn.mm (xMat V c) (wMat V c)) := by
  show (cfg0.win 2).cut (grid0.coords t) ((dat0 V c).after 2 t) = _
  rw [after0_2]
  unfold out0_2
  rw [View.canon_unit_zero origin]
  simp only [View.ld_unit_zero (S := S400x512) origin, View.ld_unit_zero (S := S512x512) origin]
  obtain ⟨e0, e1, e2, e3, e4, e5⟩ := block_rows t
  funext j
  obtain ⟨p, q, rfl⟩ : ∃ (p : Fin 400) (q : Fin 512), j = ix2 p q := ⟨j 0, j 1, eq_ix2 j⟩
  show k0_pay1 (F := Ideal) (iblk0 V c 0 t) (iblk0 V c 1 t) (ix2 p q)
    = Gcn.mm (xMat V c) (wMat V c) (((cfg0.win 2).blk t).view.emb (ix2 p q))
  refine (tile_apply (iblk0 V c 0 t) (iblk0 V c 1 t) p q).trans ?_
  refine Finset.sum_congr rfl fun k _ => ?_
  -- the slab's row p is row 400·t + p of x; W1 is read whole
  have hl : ((cfg0.win 0).blk t).view.emb (ix2 p k) = ix2 ((((cfg0.win 2).blk t).view.emb (ix2 p q)) 0) k := by
    funext a; apply Fin.ext
    match a with
    | ⟨0, _⟩ => show win0_0.index t (0 : Fin 2) * 400 + 1 * p.val = win0_2.index t (0 : Fin 2) * 400 + 1 * p.val; omega
    | ⟨1, _⟩ => show win0_0.index t (1 : Fin 2) * 512 + 1 * k.val = k.val; omega
  have hr : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 512 + 1 * q.val = win0_2.index t (1 : Fin 2) * 512 + 1 * q.val; omega
  show xMat V c (((cfg0.win 0).blk t).view.emb (ix2 p k)) * wMat V c (((cfg0.win 1).blk t).view.emb (ix2 k q)) = _
  rw [hl, hr]
  rfl

/-- An entry of the output array lies in point t's slab iff its coordinates are in the slab's ranges. -/
theorem mem_slab (t : Fin cfg0.N) (i : S10000x512.Idx) :
    i ∈ ((cfg0.win 2).blk t).view.set ↔ ∀ a : Fin 2, win0_2.index t a * S400x512.size a ≤ (i a).val
      ∧ (i a).val < win0_2.index t a * S400x512.size a + S400x512.size a := by
  show i ∈ ((View.whole main_v0).slice (win0_2.rect t)).set ↔ _
  rw [View.set_slice_whole, Rect.mem_set_unit]
  exact Iff.rfl

/-- Every entry is in the slab of the point its row falls in. -/
theorem slabs_cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  let t : Fin cfg0.N := ⟨(i 0).val / 400, by show (i 0).val / 400 < 25; omega⟩
  obtain ⟨e0, e1, -⟩ := block_rows t
  have ht : t.val = (i 0).val / 400 := rfl
  refine ⟨t, flush0_2 t, ?_⟩
  rw [mem_slab]
  intro a
  match a with
  | ⟨0, _⟩ => show win0_2.index t (0 : Fin 2) * 400 ≤ (i 0).val ∧ (i 0).val < win0_2.index t (0 : Fin 2) * 400 + 400; omega
  | ⟨1, _⟩ => show win0_2.index t (1 : Fin 2) * 512 ≤ (i 1).val ∧ (i 1).val < win0_2.index t (1 : Fin 2) * 512 + 512; omega

/-- The array the region leaves is the product of the arrays it found. -/
theorem value (c : Dev nD) : (dat0 V c).arrAt 2 cfg0.N = Gcn.mm (xMat V c) (wMat V c) :=
  (dat0 V c).arrAt_eq_of_cover 2 _ (fun t _ => flushed_eq V c t) slabs_cover

end Cert.KernelIdeal.Region0

end
-- ==== Proof.Region1.lean ====
/-
  The second kernel region computes  tanh(adj·s + b)·W  a slab of 400 rows at a time, where s is the array the first
  region left, b the first bias as a one-row matrix and W the second layer's weight.

  At grid point t the body reads rows 400·t … 400·t+399 of adj and the whole of s, b and W.  Its stored value at (p, q) is
      Σ_c tanh( Σ_d adj(400·t + p, d) · s(d, c) + b(0, c) ) · W(c, q),
  the narrowing at the end being the identity on the extended reals: the matching slab of (act adj s b)·W.  The 25 slabs
  tile the 10000 rows.
-/
import proofs.«148152_g7164005450370_cont_sun_m_643_7_alg».proof.Proof.Gen.KernelIdeal.Frame
import proofs.«148152_g7164005450370_cont_sun_m_643_7_alg».proof.Proof.LibGcnLayer
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The arrays the region reads, as matrices: adj, the first product, the bias row, the second weight. -/
abbrev adjMat (c : Dev nD) : Gcn.Mat 10000 10000 := V c main_arg1
abbrev supMat (c : Dev nD) : Gcn.Mat 10000 512 := V c main_v0
abbrev biasRow (c : Dev nD) : Gcn.Mat 1 512 := V c main_v1
abbrev wMat (c : Dev nD) : Gcn.Mat 512 512 := V c main_arg4
/-- The bias as a function of the column. -/
abbrev biasVec (c : Dev nD) : Fin 512 → EReal := fun q => biasRow V c (ix2 (0 : Fin 1) q)

theorem origin : (![0, 0] : Fin 2 → Nat) = fun _ => 0 := funext fun a => by fin_cases a <;> rfl

/-- The body's stored value at the entry (p, q) of its slab. -/
theorem tile_apply (x0 : Vec Ideal S400x10000 .f32) (x1 : Vec Ideal S10000x512 .bf16) (x2 : Vec Ideal S1x512 .f32)
    (x3 : Vec Ideal S512x512 .f32) (p : Fin 400) (q : Fin 512) :
    k1_pay1 (F := Ideal) x0 x1 x2 x3 (ix2 p q)
      = ∑ c : Fin 512, Ideal.tanh ((∑ d : Fin 10000, x0 (ix2 p d) * x1 (ix2 d c)) + x2 (ix2 (0 : Fin 1) c)) * x3 (ix2 c q) := by
  refine (Gcn.tile_mm_apply (m := 400) (k := 512) (n := 512) (ψ := .bf16) (by decide)
    (tanh (F := Ideal) (addf (matmul dot_S400x10000_S10000x512_S400x512_1_0_0_1_n_n none x0
        (shapeCast S10000x512 x1 shapeCasts_S10000x512_S10000x512) (constant S400x512 .f32 0x00000000#32))
      (broadcastTo S400x512 (shapeCast S1x512 x2 shapeCasts_S1x512_S1x512) broadcasts_S1x512_S400x512))) x3 p q).trans ?_
  refine Finset.sum_congr rfl fun c _ => ?_
  exact congrArg (· * x3 (ix2 c q))
    (Gcn.tile_act_apply (m := 400) (k := 10000) (n := 512) x0 x1 x2 shapeCasts_S10000x512_S10000x512
      shapeCasts_S1x512_S1x512 broadcasts_S1x512_S400x512 p c)

/-- Where the windows sit at point t: the slab of adj and the output slab at block row t, the rest whole. -/
theorem block_rows : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What point t writes back is slab t of (act adj s b)·W of the arrays the region found. -/
theorem flushed_eq (c : Dev nD) (t : Fin cfg1.N) :
    (dat1 V c).flushed 4 t = ((cfg1.win 4).blk t).view.read (Elt Ideal)
      (Gcn.mm (Gcn.act (adjMat V c) (supMat V c) (biasVec V c)) (wMat V c)) := by
  show (cfg1.win 4).cut (grid1.coords t) ((dat1 V c).after 4 t) = _
  rw [after1_4]
  unfold out1_4
  rw [View.canon_unit_zero origin]
  simp only [View.ld_unit_zero (S := S400x10000) origin, View.ld_unit_zero (S := S10000x512) origin,
    View.ld_unit_zero (S := S1x512) origin, View.ld_unit_zero (S := S512x512) origin]
  obtain ⟨e0, e1, e2, e3, e4, e5, e6, e7, e8, e9⟩ := block_rows t
  funext j
  obtain ⟨p, q, rfl⟩ : ∃ (p : Fin 400) (q : Fin 512), j = ix2 p q := ⟨j 0, j 1, eq_ix2 j⟩
  show k1_pay1 (F := Ideal) (iblk1 V c 0 t) (iblk1 V c 1 t) (iblk1 V c 2 t) (iblk1 V c 3 t) (ix2 p q)
    = Gcn.mm (Gcn.act (adjMat V c) (supMat V c) (biasVec V c)) (wMat V c) (((cfg1.win 4).blk t).view.emb (ix2 p q))
  refine (tile_apply (iblk1 V c 0 t) (iblk1 V c 1 t) (iblk1 V c 2 t) (iblk1 V c 3 t) p q).trans ?_
  refine Finset.sum_congr rfl fun k _ => ?_
  -- the weight and the bias row are read whole
  have hw : ((cfg1.win 3).blk t).view.emb (ix2 k q) = ix2 k ((((cfg1.win 4).blk t).view.emb (ix2 p q)) 1) := by
    funext a; apply Fin.ext
    match a with
    | ⟨0, _⟩ => show win1_3.index t (0 : Fin 2) * 512 + 1 * k.val = k.val; omega
    | ⟨1, _⟩ => show win1_3.index t (1 : Fin 2) * 512 + 1 * q.val = win1_4.index t (1 : Fin 2) * 512 + 1 * q.val; omega
  have hb : ((cfg1.win 2).blk t).view.emb (ix2 (0 : Fin 1) k) = ix2 (0 : Fin 1) k := by
    funext a; apply Fin.ext
    match a with
    | ⟨0, _⟩ => show win1_2.index t (0 : Fin 2) * 1 + 1 * 0 = 0; omega
    | ⟨1, _⟩ => show win1_2.index t (1 : Fin 2) * 512 + 1 * k.val = k.val; omega
  show Ideal.tanh ((∑ d : Fin 10000, adjMat V c (((cfg1.win 0).blk t).view.emb (ix2 p d)) * supMat V c (((cfg1.win 1).blk t).view.emb (ix2 d k)))
      + biasRow V c (((cfg1.win 2).blk t).view.emb (ix2 (0 : Fin 1) k))) * wMat V c (((cfg1.win 3).blk t).view.emb (ix2 k q))
    = Ideal.tanh ((∑ d : Fin 10000, adjMat V c (ix2 ((((cfg1.win 4).blk t).view.emb (ix2 p q)) 0) d) * supMat V c (ix2 d k))
      + biasRow V c (ix2 (0 : Fin 1) k)) * wMat V c (ix2 k ((((cfg1.win 4).blk t).view.emb (ix2 p q)) 1))
  rw [hw, hb]
  refine congrArg (fun s => Ideal.tanh (s + biasRow V c (ix2 (0 : Fin 1) k)) * wMat V c (ix2 k ((((cfg1.win 4).blk t).view.emb (ix2 p q)) 1))) ?_
  refine Finset.sum_congr rfl fun d _ => ?_
  -- the slab's row p is row 400·t + p of adj; the first product is read whole
  have ha : ((cfg1.win 0).blk t).view.emb (ix2 p d) = ix2 ((((cfg1.win 4).blk t).view.emb (ix2 p q)) 0) d := by
    funext a; apply Fin.ext
    match a with
    | ⟨0, _⟩ => show win1_0.index t (0 : Fin 2) * 400 + 1 * p.val = win1_4.index t (0 : Fin 2) * 400 + 1 * p.val; omega
    | ⟨1, _⟩ => show win1_0.index t (1 : Fin 2) * 10000 + 1 * d.val = d.val; omega
  have hs : ((cfg1.win 1).blk t).view.emb (ix2 d k) = ix2 d k := by
    funext a; apply Fin.ext
    match a with
    | ⟨0, _⟩ => show win1_1.index t (0 : Fin 2) * 10000 + 1 * d.val = d.val; omega
    | ⟨1, _⟩ => show win1_1.index t (1 : Fin 2) * 512 + 1 * k.val = k.val; omega
  rw [ha, hs]
  rfl

/-- An entry of the output array lies in point t's slab iff its coordinates are in the slab's ranges. -/
theorem mem_slab (t : Fin cfg1.N) (i : S10000x512.Idx) :
    i ∈ ((cfg1.win 4).blk t).view.set ↔ ∀ a : Fin 2, win1_4.index t a * S400x512.size a ≤ (i a).val
      ∧ (i a).val < win1_4.index t a * S400x512.size a + S400x512.size a := by
  show i ∈ ((View.whole main_v2).slice (win1_4.rect t)).set ↔ _
  rw [View.set_slice_whole, Rect.mem_set_unit]
  exact Iff.rfl

/-- Every entry is in the slab of the point its row falls in. -/
theorem slabs_cover (i : S10000x512.Idx) :
    ∃ t : Fin cfg1.N, (cfg1.win 4).flush t = true ∧ i ∈ ((cfg1.win 4).blk t).view.set := by
  have hi0 : (i 0).val < 10000 := (i 0).isLt
  have hi1 : (i 1).val < 512 := (i 1).isLt
  let t : Fin cfg1.N := ⟨(i 0).val / 400, by show (i 0).val / 400 < 25; omega⟩
  obtain ⟨e0, e1, -⟩ := block_rows t
  have ht : t.val = (i 0).val / 400 := rfl
  refine ⟨t, flush1_4 t, ?_⟩
  rw [mem_slab]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 512 ≤ (i 1).val ∧ (i 1).val < win1_4.index t (1 : Fin 2) * 512 + 512; omega

/-- The array the region leaves is (act adj s b)·W of the arrays it found. -/
theorem value (c : Dev nD) :
    (dat1 V c).arrAt 4 cfg1.N = Gcn.mm (Gcn.act (adjMat V c) (supMat V c) (biasVec V c)) (wMat V c) :=
  (dat1 V c).arrAt_eq_of_cover 4 _ (fun t _ => flushed_eq V c t) slabs_cover

end Cert.KernelIdeal.Region1

end
-- ==== Proof.Region2.lean ====
/-
  The third kernel region computes  tanh(adj·s + b)  a slab of 400 rows at a time, where s is the array the second
  region left and b the second bias as a one-row matrix (the second weight is fetched but not read).

  At grid point t the body reads rows 400·t … 400·t+399 of adj and the whole of s and b.  Its stored value at (p, q) is
      tanh( Σ_d adj(400·t + p, d) · s(d, q) + b(0, q) ),
  the matching slab of the layer's activation.  The 25 slabs tile the 10000 rows.
-/
import proofs.«148152_g7164005450370_cont_sun_m_643_7_alg».proof.Proof.Gen.KernelIdeal.Frame
import proofs.«148152_g7164005450370_cont_sun_m_643_7_alg».proof.Proof.LibGcnLayer
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The arrays the region reads, as matrices: adj, the second product, the bias row. -/
abbrev adjMat (c : Dev nD) : Gcn.Mat 10000 10000 := V c main_arg1
abbrev supMat (c : Dev nD) : Gcn.Mat 10000 512 := V c main_v2
abbrev biasRow (c : Dev nD) : Gcn.Mat 1 512 := V c main_v3
/-- The bias as a function of the column. -/
abbrev biasVec (c : Dev nD) : Fin 512 → EReal := fun q => biasRow V c (ix2 (0 : Fin 1) q)

theorem origin : (![0, 0] : Fin 2 → Nat) = fun _ => 0 := funext fun a => by fin_cases a <;> rfl

/-- The body's stored value at the entry (p, q) of its slab. -/
theorem tile_apply (x0 : Vec Ideal S400x10000 .f32) (x1 : Vec Ideal S10000x512 .bf16) (x2 : Vec Ideal S1x512 .f32)
    (p : Fin 400) (q : Fin 512) :
    k2_pay1 (F := Ideal) x0 x1 x2 (ix2 p q)
      = Ideal.tanh ((∑ d : Fin 10000, x0 (ix2 p d) * x1 (ix2 d q)) + x2 (ix2 (0 : Fin 1) q)) :=
  Gcn.tile_act_apply (m := 400) (k := 10000) (n := 512) x0 x1 x2 shapeCasts_S10000x512_S10000x512
    shapeCasts_S1x512_S1x512 broadcasts_S1x512_S400x512 p q

/-- Where the windows sit at point t: the slab of adj and the output slab at block row t, the rest whole. -/
theorem block_rows : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What point t writes back is slab t of the activation of the arrays the region found. -/
theorem flushed_eq (c : Dev nD) (t : Fin cfg2.N) :
    (dat2 V c).flushed 4 t = ((cfg2.win 4).blk t).view.read (Elt Ideal)
      (Gcn.act (adjMat V c) (supMat V c) (biasVec V c)) := by
  show (cfg2.win 4).cut (grid2.coords t) ((dat2 V c).after 4 t) = _
  rw [after2_4]
  unfold out2_4
  rw [View.canon_unit_zero origin]
  simp only [View.ld_unit_zero (S := S400x10000) origin, View.ld_unit_zero (S := S10000x512) origin,
    View.ld_unit_zero (S := S1x512) origin]
  obtain ⟨e0, e1, e2, e3, e4, e5, e6, e7⟩ := block_rows t
  funext j
  obtain ⟨p, q, rfl⟩ : ∃ (p : Fin 400) (q : Fin 512), j = ix2 p q := ⟨j 0, j 1, eq_ix2 j⟩
  show k2_pay1 (F := Ideal) (iblk2 V c 0 t) (iblk2 V c 1 t) (iblk2 V c 2 t) (ix2 p q)
    = Gcn.act (adjMat V c) (supMat V c) (biasVec V c) (((cfg2.win 4).blk t).view.emb (ix2 p q))
  refine (tile_apply (iblk2 V c 0 t) (iblk2 V c 1 t) (iblk2 V c 2 t) p q).trans ?_
  -- the bias row is read whole, at the output's column
  have hb : ((cfg2.win 2).blk t).view.emb (ix2 (0 : Fin 1) q) = ix2 (0 : Fin 1) ((((cfg2.win 4).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 512 + 1 * q.val = win2_4.index t (1 : Fin 2) * 512 + 1 * q.val; omega
  show Ideal.tanh ((∑ d : Fin 10000, adjMat V c (((cfg2.win 0).blk t).view.emb (ix2 p d)) * supMat V c (((cfg2.win 1).blk t).view.emb (ix2 d q)))
      + biasRow V c (((cfg2.win 2).blk t).view.emb (ix2 (0 : Fin 1) q)))
    = Ideal.tanh ((∑ d : Fin 10000, adjMat V c (ix2 ((((cfg2.win 4).blk t).view.emb (ix2 p q)) 0) d)
        * supMat V c (ix2 d ((((cfg2.win 4).blk t).view.emb (ix2 p q)) 1)))
      + biasRow V c (ix2 (0 : Fin 1) ((((cfg2.win 4).blk t).view.emb (ix2 p q)) 1)))
  rw [hb]
  refine congrArg (fun s => Ideal.tanh (s + biasRow V c (ix2 (0 : Fin 1) ((((cfg2.win 4).blk t).view.emb (ix2 p q)) 1)))) ?_
  refine Finset.sum_congr rfl fun d _ => ?_
  -- the slab's row p is row 400·t + p of adj; the second product is read whole
  have ha : ((cfg2.win 0).blk t).view.emb (ix2 p d) = ix2 ((((cfg2.win 4).blk t).view.emb (ix2 p q)) 0) d := by
    funext a; apply Fin.ext
    match a with
    | ⟨0, _⟩ => show win2_0.index t (0 : Fin 2) * 400 + 1 * p.val = win2_4.index t (0 : Fin 2) * 400 + 1 * p.val; omega
    | ⟨1, _⟩ => show win2_0.index t (1 : Fin 2) * 10000 + 1 * d.val = d.val; omega
  have hs : ((cfg2.win 1).blk t).view.emb (ix2 d q) = ix2 d ((((cfg2.win 4).blk t).view.emb (ix2 p q)) 1) := by
    funext a; apply Fin.ext
    match a with
    | ⟨0, _⟩ => show win2_1.index t (0 : Fin 2) * 10000 + 1 * d.val = d.val; omega
    | ⟨1, _⟩ => show win2_1.index t (1 : Fin 2) * 512 + 1 * q.val = win2_4.index t (1 : Fin 2) * 512 + 1 * q.val; omega
  rw [ha, hs]
  rfl

/-- An entry of the output array lies in point t's slab iff its coordinates are in the slab's ranges. -/
theorem mem_slab (t : Fin cfg2.N) (i : S10000x512.Idx) :
    i ∈ ((cfg2.win 4).blk t).view.set ↔ ∀ a : Fin 2, win2_4.index t a * S400x512.size a ≤ (i a).val
      ∧ (i a).val < win2_4.index t a * S400x512.size a + S400x512.size a := by
  show i ∈ ((View.whole main_v4).slice (win2_4.rect t)).set ↔ _
  rw [View.set_slice_whole, Rect.mem_set_unit]
  exact Iff.rfl

/-- Every entry is in the slab of the point its row falls in. -/
theorem slabs_cover (i : S10000x512.Idx) :
    ∃ t : Fin cfg2.N, (cfg2.win 4).flush t = true ∧ i ∈ ((cfg2.win 4).blk t).view.set := by
  have hi0 : (i 0).val < 10000 := (i 0).isLt
  have hi1 : (i 1).val < 512 := (i 1).isLt
  let t : Fin cfg2.N := ⟨(i 0).val / 400, by show (i 0).val / 400 < 25; omega⟩
  obtain ⟨e0, e1, -⟩ := block_rows t
  have ht : t.val = (i 0).val / 400 := rfl
  refine ⟨t, flush2_4 t, ?_⟩
  rw [mem_slab]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 512 ≤ (i 1).val ∧ (i 1).val < win2_4.index t (1 : Fin 2) * 512 + 512; omega

/-- The array the region leaves is the activation of the arrays it found. -/
theorem value (c : Dev nD) :
    (dat2 V c).arrAt 4 cfg2.N = Gcn.act (adjMat V c) (supMat V c) (biasVec V c) :=
  (dat2 V c).arrAt_eq_of_cover 4 _ (fun t _ => flushed_eq V c t) slabs_cover

end Cert.KernelIdeal.Region2

end
-- ==== Proof.KernelValue.lean ====
/-
  The kernel program's result as a function of its six arguments.

  @main is three regions with a reshape of a bias vector to a one-row matrix before the second and before the third.
  Reading the buffer contents back from the last boundary to the launch: the third region leaves
  tanh(adj·s2 + b2) of the arrays it found; s2 is what the second region left, tanh(adj·s1 + b1)·W2; s1 is what the first
  region left, x·W1; adj, W2 and the bias vectors are the launch contents, no region and no reshape writing them, and a
  reshaped bias read at (0, q) is the vector at q.  Composed, the result is the network `Gcn.net` of the arguments.
-/
import proofs.«148152_g7164005450370_cont_sun_m_643_7_alg».proof.Proof.Gen.KernelIdeal.Frame
import proofs.«148152_g7164005450370_cont_sun_m_643_7_alg».proof.Proof.LibGcnLayer
import proofs.«148152_g7164005450370_cont_sun_m_643_7_alg».proof.Proof.Region0
import proofs.«148152_g7164005450370_cont_sun_m_643_7_alg».proof.Proof.Region1
import proofs.«148152_g7164005450370_cont_sun_m_643_7_alg».proof.Proof.Region2
import Idealize.ShloMosaic.Lib.StableHlo.Run
import Idealize.ShloMosaic.Lib.ValueLayout

set_option maxRecDepth 16384

noncomputable section

namespace Cert.KernelIdeal.NetValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The arguments at launch, as matrices and bias vectors. -/
abbrev xIn (c : Dev nD) : Gcn.Mat 10000 512 := m ((c : Thread nD τ).loc main_arg0)
abbrev adjIn (c : Dev nD) : Gcn.Mat 10000 10000 := m ((c : Thread nD τ).loc main_arg1)
abbrev w1In (c : Dev nD) : Gcn.Mat 512 512 := m ((c : Thread nD τ).loc main_arg2)
abbrev w2In (c : Dev nD) : Gcn.Mat 512 512 := m ((c : Thread nD τ).loc main_arg4)
abbrev b1Arr (c : Dev nD) : (⟨1, ![512]⟩ : Shape).Idx → EReal := m ((c : Thread nD τ).loc main_arg3)
abbrev b2Arr (c : Dev nD) : (⟨1, ![512]⟩ : Shape).Idx → EReal := m ((c : Thread nD τ).loc main_arg5)
abbrev b1In (c : Dev nD) : Fin 512 → EReal := fun q => b1Arr m c (ix1 q)
abbrev b2In (c : Dev nD) : Fin 512 → EReal := fun q => b2Arr m c (ix1 q)

/-! ## The two reshapes leave every other buffer as it was -/

theorem keep1 (c : Dev nD) {b : Ref sig .tc} (hb : b ≠ main_v1) :
    W2 m ρ c (Proc.devRef .tc b) = W1 m ρ c (Proc.devRef .tc b) :=
  StableHlo.reshape_result_ne _ _ _ _ _ _ (W1 m ρ c) hb

theorem keep2 (c : Dev nD) {b : Ref sig .tc} (hb : b ≠ main_v3) :
    W4 m ρ c (Proc.devRef .tc b) = W3 m ρ c (Proc.devRef .tc b) :=
  StableHlo.reshape_result_ne _ _ _ _ _ _ (W3 m ρ c) hb

/-! ## The first region's inputs and what it leaves -/

theorem support1 (c : Dev nD) : W1 m ρ c (Proc.devRef .tc main_v0) = Gcn.mm (xIn m c) (w1In m c) :=
  (W1_arr m ρ c 2).trans (Region0.value (V0 m ρ) c)

/-! ## The second region's inputs -/

theorem adj_in1 (c : Dev nD) : Region1.adjMat (V2 m ρ) c = adjIn m c :=
  calc W2 m ρ c (Proc.devRef .tc main_arg1)
    _ = W1 m ρ c (Proc.devRef .tc main_arg1) := keep1 m ρ c (by decide)
    _ = W0 m ρ c (Proc.devRef .tc main_arg1) := W1_of_ne m ρ c main_arg1 (by decide)
    _ = m ((c : Thread nD τ).loc main_arg1) := rfl

theorem sup_in1 (c : Dev nD) : Region1.supMat (V2 m ρ) c = Gcn.mm (xIn m c) (w1In m c) :=
  (keep1 m ρ c (b := main_v0) (by decide)).trans (support1 m ρ c)

theorem w_in1 (c : Dev nD) : Region1.wMat (V2 m ρ) c = w2In m c :=
  calc W2 m ρ c (Proc.devRef .tc main_arg4)
    _ = W1 m ρ c (Proc.devRef .tc main_arg4) := keep1 m ρ c (by decide)
    _ = W0 m ρ c (Proc.devRef .tc main_arg4) := W1_of_ne m ρ c main_arg4 (by decide)
    _ = m ((c : Thread nD τ).loc main_arg4) := rfl

theorem bias_in1 (c : Dev nD) : Region1.biasVec (V2 m ρ) c = b1In m c := by
  funext q
  have hr : W2 m ρ c (Proc.devRef .tc main_v1)
      = fun i => shapeCast S1x512 (W1 m ρ c (Proc.devRef .tc main_arg3)) shapeCasts_S512_S1x512 i := by
    show StableHlo.after hostOps1 (W1 m ρ c) (Proc.devRef .tc main_v1) = _
    after_results
    try rfl
  have h0 : W1 m ρ c (Proc.devRef .tc main_arg3) = m ((c : Thread nD τ).loc main_arg3) :=
    (W1_of_ne m ρ c main_arg3 (by decide)).trans rfl
  show W2 m ρ c (Proc.devRef .tc main_v1) (ix2 (0 : Fin 1) q) = b1Arr m c (ix1 q)
  rw [hr, h0]
  exact shapeCast_a_1a_apply (a := 512) (b1Arr m c) shapeCasts_S512_S1x512 0 q

theorem support2 (c : Dev nD) :
    W3 m ρ c (Proc.devRef .tc main_v2)
      = Gcn.mm (Gcn.act (adjIn m c) (Gcn.mm (xIn m c) (w1In m c)) (b1In m c)) (w2In m c) := by
  refine ((W3_arr m ρ c 4).trans (Region1.value (V2 m ρ) c)).trans ?_
  rw [adj_in1, sup_in1, w_in1, bias_in1]

/-! ## The third region's inputs -/

theorem adj_in2 (c : Dev nD) : Region2.adjMat (V4 m ρ) c = adjIn m c :=
  calc W4 m ρ c (Proc.devRef .tc main_arg1)
    _ = W3 m ρ c (Proc.devRef .tc main_arg1) := keep2 m ρ c (by decide)
    _ = W2 m ρ c (Proc.devRef .tc main_arg1) := (W3_arr m ρ c 0).trans (((dat1 (V2 m ρ) c).arrAt_in 0 rfl _).trans (A_eq1 (V2 m ρ) c 0))
    _ = m ((c : Thread nD τ).loc main_arg1) := adj_in1 m ρ c

theorem sup_in2 (c : Dev nD) :
    Region2.supMat (V4 m ρ) c
      = Gcn.mm (Gcn.act (adjIn m c) (Gcn.mm (xIn m c) (w1In m c)) (b1In m c)) (w2In m c) :=
  (keep2 m ρ c (b := main_v2) (by decide)).trans (support2 m ρ c)

theorem bias_in2 (c : Dev nD) : Region2.biasVec (V4 m ρ) c = b2In m c := by
  funext q
  have hr : W4 m ρ c (Proc.devRef .tc main_v3)
      = fun i => shapeCast S1x512 (W3 m ρ c (Proc.devRef .tc main_arg5)) shapeCasts_S512_S1x512 i := by
    show StableHlo.after hostOps2 (W3 m ρ c) (Proc.devRef .tc main_v3) = _
    after_results
    try rfl
  have h0 : W3 m ρ c (Proc.devRef .tc main_arg5) = m ((c : Thread nD τ).loc main_arg5) :=
    calc W3 m ρ c (Proc.devRef .tc main_arg5)
      _ = W2 m ρ c (Proc.devRef .tc main_arg5) := W3_of_ne m ρ c main_arg5 (by decide)
      _ = W1 m ρ c (Proc.devRef .tc main_arg5) := keep1 m ρ c (by decide)
      _ = W0 m ρ c (Proc.devRef .tc main_arg5) := W1_of_ne m ρ c main_arg5 (by decide)
      _ = m ((c : Thread nD τ).loc main_arg5) := rfl
  show W4 m ρ c (Proc.devRef .tc main_v3) (ix2 (0 : Fin 1) q) = b2Arr m c (ix1 q)
  rw [hr, h0]
  exact shapeCast_a_1a_apply (a := 512) (b2Arr m c) shapeCasts_S512_S1x512 0 q

/-- The result array at the last boundary is the network of the launch arguments. -/
theorem result_eq (c : Dev nD) :
    W5 m ρ c (Proc.devRef .tc main_v4)
      = Gcn.net (xIn m c) (adjIn m c) (w1In m c) (b1In m c) (w2In m c) (b2In m c) := by
  refine ((W5_arr m ρ c 4).trans (Region2.value (V4 m ρ) c)).trans ?_
  rw [adj_in2, sup_in2, bias_in2]
  rfl

end Cert.KernelIdeal.NetValue

end
-- ==== Proof.RefValue.lean ====
/-
  The reference's result, stage by stage, is the network `Gcn.net` of its six arguments: each dot_general is a matrix
  product, each bias is broadcast from a vector to one row and from that row to every row, and the host's tanh is the
  ideal tanh.
-/
import proofs.«148152_g7164005450370_cont_sun_m_643_7_alg».proof.Proof.Gen.ReferenceIdeal.Read
import proofs.«148152_g7164005450370_cont_sun_m_643_7_alg».proof.Proof.LibGcnLayer

noncomputable section

namespace Cert.ReferenceIdeal.RefValue

open Cert.ReferenceIdeal Cert.ReferenceIdeal.Gen Cert.ReferenceIdeal.Read Idealize.ShloMosaic Idealize.ShloMosaic.ValueIdx

/-- The bias vector as a function of the column. -/
abbrev biasOf (b : (⟨S512, .f32⟩ : BufTy).Contents (Elt Ideal)) : Fin 512 → EReal := fun q => b (ix1 q)

/-- The first product x·W1. -/
theorem support1_eq (x0 : (⟨S10000x512, .f32⟩ : BufTy).Contents (Elt Ideal)) (x2 : (⟨S512x512, .f32⟩ : BufTy).Contents (Elt Ideal)) :
    val_main_v0 (F := Ideal) x0 x2 = Gcn.mm x0 x2 := by
  funext j
  obtain ⟨p, q, rfl⟩ : ∃ (p : Fin 10000) (q : Fin 512), j = ix2 p q := ⟨j 0, j 1, eq_ix2 j⟩
  exact Gcn.hostDot_apply (m := 10000) (k := 512) (n := 512) none x0 x2 p q

/-- A bias broadcast to every row reads the vector at the entry's column. -/
theorem bias_rows_apply (b : (⟨S512, .f32⟩ : BufTy).Contents (Elt Ideal)) (p : Fin 10000) (q : Fin 512) :
    val_main_v3 (F := Ideal) b (ix2 p q) = biasOf b q := by
  rw [val_main_v3_apply, val_main_v2_apply]
  exact congrArg b (funext fun a => match a with | ⟨0, _⟩ => rfl)

/-- The first layer's activation tanh(adj·(x·W1) + b1). -/
theorem hidden_eq (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal)) :
    val_main_v5 (F := Ideal) x0 x1 x2 x3 = Gcn.act x1 (Gcn.mm x0 x2) (biasOf x3) := by
  funext j
  obtain ⟨p, q, rfl⟩ : ∃ (p : Fin 10000) (q : Fin 512), j = ix2 p q := ⟨j 0, j 1, eq_ix2 j⟩
  rw [Gcn.act_apply, ← support1_eq]
  show Ideal.tanh (Host.dotGeneral (F := Ideal) (DotDims.plain 10000 10000 512) none x1 (val_main_v0 (F := Ideal) x0 x2) (ix2 p q)
    + val_main_v3 (F := Ideal) x3 (ix2 p q)) = _
  rw [Gcn.hostDot_apply, bias_rows_apply]

/-- The same broadcast for the second bias. -/
theorem bias2_rows_apply (b : (⟨S512, .f32⟩ : BufTy).Contents (Elt Ideal)) (p : Fin 10000) (q : Fin 512) :
    val_main_v9 (F := Ideal) b (ix2 p q) = biasOf b q := by
  rw [val_main_v9_apply, val_main_v8_apply]
  exact congrArg b (funext fun a => match a with | ⟨0, _⟩ => rfl)

/-- The second product (first activation)·W2. -/
theorem support2_eq (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) :
    val_main_v6 (F := Ideal) x0 x1 x2 x3 x4 = Gcn.mm (Gcn.act x1 (Gcn.mm x0 x2) (biasOf x3)) x4 := by
  funext j
  obtain ⟨p, q, rfl⟩ : ∃ (p : Fin 10000) (q : Fin 512), j = ix2 p q := ⟨j 0, j 1, eq_ix2 j⟩
  rw [← hidden_eq]
  exact Gcn.hostDot_apply (m := 10000) (k := 512) (n := 512) none (val_main_v5 (F := Ideal) x0 x1 x2 x3) x4 p q

/-- The reference's result is the network of its arguments. -/
theorem result_eq (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) :
    val_main_v11 (F := Ideal) x0 x1 x2 x3 x4 x5 = Gcn.net x0 x1 x2 (biasOf x3) x4 (biasOf x5) := by
  funext j
  obtain ⟨p, q, rfl⟩ : ∃ (p : Fin 10000) (q : Fin 512), j = ix2 p q := ⟨j 0, j 1, eq_ix2 j⟩
  unfold Gcn.net
  rw [Gcn.act_apply, ← support2_eq]
  show Ideal.tanh (Host.dotGeneral (F := Ideal) (DotDims.plain 10000 10000 512) none x1 (val_main_v6 (F := Ideal) x0 x1 x2 x3 x4) (ix2 p q)
    + val_main_v9 (F := Ideal) x5 (ix2 p q)) = _
  rw [Gcn.hostDot_apply, bias2_rows_apply]

end Cert.ReferenceIdeal.RefValue

end
-- ==== Proof.lean ====
/-
  The kernel and its reference compute the same two-layer graph convolution
      tanh(adj · (tanh(adj · (x·W1) + b1) · W2) + b2)
  over the extended reals.

  The kernel does it in three gridded regions of 25 row slabs each (x·W1; then tanh(adj·s + b1)·W2; then tanh(adj·s + b2)),
  storing its two intermediate arrays in a shorter float format, which is the identity at the ideal values; the
  reference is twelve host operations.  Both results are the one function `Gcn.net` of the six arguments
  (Proof/LibGcnLayer.lean): the reference stage by stage (Proof/RefValue.lean), the kernel region by region
  (Proof/Region0.lean, Region1.lean, Region2.lean: each region's slabs tile its output array) and then boundary by
  boundary back to the launch (Proof/KernelValue.lean).  No law beyond the definition of the matrix product is needed,
  so the finiteness of the inputs is never used.  The three frames are the generated ones, and the idealization
  rewrote nothing, so `preserves` is trivial.
-/
import proofs.«148152_g7164005450370_cont_sun_m_643_7_alg».proof.Defs
import proofs.«148152_g7164005450370_cont_sun_m_643_7_alg».proof.Proof.Gen.Kernel
import proofs.«148152_g7164005450370_cont_sun_m_643_7_alg».proof.Proof.Gen.Kernel.Skeleton
import proofs.«148152_g7164005450370_cont_sun_m_643_7_alg».proof.Proof.Gen.Kernel.Launch
import proofs.«148152_g7164005450370_cont_sun_m_643_7_alg».proof.Proof.Gen.Kernel.Points
import proofs.«148152_g7164005450370_cont_sun_m_643_7_alg».proof.Proof.Gen.Kernel.Frame
import proofs.«148152_g7164005450370_cont_sun_m_643_7_alg».proof.Proof.Gen.KernelIdeal
import proofs.«148152_g7164005450370_cont_sun_m_643_7_alg».proof.Proof.Gen.KernelIdeal.Skeleton
import proofs.«148152_g7164005450370_cont_sun_m_643_7_alg».proof.Proof.Gen.KernelIdeal.Launch
import proofs.«148152_g7164005450370_cont_sun_m_643_7_alg».proof.Proof.Gen.KernelIdeal.Points
import proofs.«148152_g7164005450370_cont_sun_m_643_7_alg».proof.Proof.Gen.KernelIdeal.Frame
import proofs.«148152_g7164005450370_cont_sun_m_643_7_alg».proof.Proof.Gen.ReferenceIdeal
import proofs.«148152_g7164005450370_cont_sun_m_643_7_alg».proof.Proof.Gen.ReferenceIdeal.Run
import proofs.«148152_g7164005450370_cont_sun_m_643_7_alg».proof.Proof.Gen.ReferenceIdeal.Read
import proofs.«148152_g7164005450370_cont_sun_m_643_7_alg».proof.Proof.Gen.Pre_finite_inputs
import proofs.«148152_g7164005450370_cont_sun_m_643_7_alg».proof.Proof.KernelRun
import proofs.«148152_g7164005450370_cont_sun_m_643_7_alg».proof.Proof.KernelValue
import proofs.«148152_g7164005450370_cont_sun_m_643_7_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result arrays. -/
theorem algebraic : Cert.algebraic_KernelIdeal_ReferenceIdeal := by
  intro m ρ m' ρ' _ hagree
  refine ⟨fun c => Cert.Gcn.net (Cert.KernelIdeal.NetValue.xIn m c) (Cert.KernelIdeal.NetValue.adjIn m c)
    (Cert.KernelIdeal.NetValue.w1In m c) (Cert.KernelIdeal.NetValue.b1In m c) (Cert.KernelIdeal.NetValue.w2In m c)
    (Cert.KernelIdeal.NetValue.b2In m c), ?_, ?_⟩
  · exact (θ_run Cert.KernelIdeal.defs _ _).mono
      (fun r h c => ⟨(h c).1.trans (Cert.KernelIdeal.NetValue.result_eq m ρ c), (h c).2⟩)
      (Cert.KernelIdeal.GenRun.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v11_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
